-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S16x4096x256 : Shape := ⟨3, ![16, 4096, 256]⟩
abbrev S16 : Shape := ⟨1, ![16]⟩
abbrev S256x256 : Shape := ⟨2, ![256, 256]⟩
abbrev S256 : Shape := ⟨1, ![256]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S16x4096x256 : S_.BroadcastsInDim S16x4096x256 (![] : Fin 0 → Fin S16x4096x256.rank)
  reducesTo_S16x4096x256_S_d0_1_2 : S16x4096x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S16x4096 .f32) (main_arg1 : FVec F S16x4096x256 .f32) (main_arg2 : IVec S16 32) (main_arg3 : FVec F S256x256 .f32) (main_arg4 : FVec F S256 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S16x4096x256 .f32 := Host.absf main_arg1
  let main_cst_0 : FVec F S_ .f32 := constant S_ .f32 0x7F800000#32
  let main_v5 : FVec F S16x4096x256 .f32 := broadcastInDim S16x4096x256 ![] bcast_S_S16x4096x256 main_cst_0
  let main_v6 : IVec S16x4096x256 1 := cmpf .olt main_v4 main_v5
  let main_c_1 : IVec S_ 1 := constantI S_ 1 1#1
  let main_v7 : IVec S_ 1 := (fun x v => Host.reduce IntOp.andi x v reducesTo_S16x4096x256_S_d0_1_2 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S16x4096 : Shape := ⟨2, ![16, 4096]⟩
abbrev S16x4096x256 : Shape := ⟨3, ![16, 4096, 256]⟩
abbrev S16 : Shape := ⟨1, ![16]⟩
abbrev S256x256 : Shape := ⟨2, ![256, 256]⟩
abbrev S256 : Shape := ⟨1, ![256]⟩
abbrev S1x256 : Shape := ⟨2, ![1, 256]⟩
abbrev S1x1024x256 : Shape := ⟨3, ![1, 1024, 256]⟩
abbrev S1024x256 : Shape := ⟨2, ![1024, 256]⟩
abbrev S16x4095x256 : Shape := ⟨3, ![16, 4095, 256]⟩

abbrev nBuf : Space → Nat
  | .hbm => 10
  | .vmem => 7
  | .smem => 0
  | _ => 0

abbrev bufTy : (tb : Table) → Fin (tcTables nBuf tb) → BufTy
  | .hbm, ⟨0, _⟩ => ⟨S16x4096, .f32⟩
  | .hbm, ⟨1, _⟩ => ⟨S16x4096x256, .f32⟩
  | .hbm, ⟨2, _⟩ => ⟨S16, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256x256, .bf16⟩
  | .hbm, ⟨7, _⟩ => ⟨S1x256, .f32⟩
  | .hbm, ⟨8, _⟩ => ⟨S16x4096x256, .f32⟩
  | .hbm, ⟨9, _⟩ => ⟨S16x4095x256, .f32⟩
  | .local _ .vmem, ⟨0, _⟩ => ⟨S1x1024x256, .f32⟩
  | .local _ .vmem, ⟨1, _⟩ => ⟨S1x1024x256, .f32⟩
  | .local _ .vmem, ⟨2, _⟩ => ⟨S256x256, .bf16⟩
  | .local _ .vmem, ⟨3, _⟩ => ⟨S1x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S256x256_S256x256_1_0 : S256x256.Transposes [1, 0] S256x256
  bitsLt_bf16_f32 : FTy.bits .bf16 < FTy.bits .f32
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  rotates_S1024x256_d0 : S1024x256.Rotates 0 none
  iota_S1024x256_d0_w32 : S1024x256.Iotas .tc 32 [0]
  broadcasts_S1x256_S1024x256 : S1x256.Broadcasts S1024x256
  slices_S1024x256_o1023_0_S1x256 : S1024x256.Slices ![1023, 0] S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S1024x256_S1x1024x256 : S1024x256.ShapeCasts S1x1024x256
  slices_S16x4096x256_S16x4095x256_0_0_0 : S16x4096x256.Slices ![0, 0, 0] S16x4095x256
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S16x4096x256.size a
  hwx0_0 : ∀ i : grid0.Coords, EltTy.bits .f32 = 32 ∨ (Rect.block (s := S16x4096x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S16x4096x256.size a
  hwx0_3 : ∀ i : grid0.Coords, EltTy.bits .f32 = 32 ∨ (Rect.block (s := S16x4096x256) S1x1024x256.size (cc0_transform_3 i) (hinb0_3 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg1) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096 : Shape := ⟨2, ![16, 4096]⟩
abbrev S16x4096x256 : Shape := ⟨3, ![16, 4096, 256]⟩
abbrev S16 : Shape := ⟨1, ![16]⟩
abbrev S256x256 : Shape := ⟨2, ![256, 256]⟩
abbrev S256 : Shape := ⟨1, ![256]⟩
abbrev S_ : Shape := ⟨0, ![]⟩
abbrev S16x4095x256 : Shape := ⟨3, ![16, 4095, 256]⟩
abbrev S1x1x256 : Shape := ⟨3, ![1, 1, 256]⟩

abbrev nBuf : Space → Nat
  | .hbm => 13
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S16x4096x256, .f32⟩
  | .hbm, ⟨2, _⟩ => ⟨S16, .i32⟩
  | .hbm, ⟨3, _⟩ => ⟨S256x256, .f32⟩
  | .hbm, ⟨4, _⟩ => ⟨S256, .f32⟩
  | .hbm, ⟨5, _⟩ => ⟨S_, .f32⟩
  | .hbm, ⟨6, _⟩ => ⟨S_, .f32⟩
  | .hbm, ⟨7, _⟩ => ⟨S16x4096x256, .f32⟩
  | .hbm, ⟨8, _⟩ => ⟨S16x4095x256, .f32⟩
  | .hbm, ⟨9, _⟩ => ⟨S16x4095x256, .f32⟩
  | .hbm, ⟨10, _⟩ => ⟨S1x1x256, .f32⟩
  | .hbm, ⟨11, _⟩ => ⟨S16x4095x256, .f32⟩
  | .hbm, ⟨12, _⟩ => ⟨S16x4095x256, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x4096x256_S16x4096x256_w1s1p0_0_w4096s1p4095_0_w1s1p0_0 : S16x4096x256.ReduceWindows (![1, 4096, 1] : Fin 3 → Nat) ![1, 1, 1] ![0, 4095, 0] ![0, 0, 0] S16x4096x256
  h_S_ : 0 < S_.numel
  slices_S16x4096x256_S16x4095x256_0_0_0 : S16x4096x256.Slices ![0, 0, 0] S16x4095x256
  bcast_S256_S1x1x256_2 : S256.BroadcastsInDim S1x1x256 (![2] : Fin 1 → Fin S1x1x256.rank)
  bcast_S1x1x256_S16x4095x256_0_1_2 : S1x1x256.BroadcastsInDim S16x4095x256 (![0, 1, 2] : Fin 3 → Fin S16x4095x256.rank)
  dot_S16x4095x256_S256x256_S16x4095x256_2_1_01_0_n_n_wf : DotDims.WF S16x4095x256 S256x256 S16x4095x256 [2] [1] [0, 1] [0] [] []

variable [Facts₀]

def dot_S16x4095x256_S256x256_S16x4095x256_2_1_01_0_n_n : DotDims S16x4095x256 S256x256 S16x4095x256 where
  lhsContracting := [2]
  rhsContracting := [1]
  lhsNonContracting := [0, 1]
  rhsNonContracting := [0]
  lhsBatch := []
  rhsBatch := []
  wf := dot_S16x4095x256_S256x256_S16x4095x256_2_1_01_0_n_n_wf

class Facts : Prop extends Facts₀ where

variable [Facts]
-- ==== Proof.LibRunningMax.lean ====
/-
  Running maxima of a sequence of extended reals.

  runMax f n is the largest of f 0, …, f n; winMax f w n the largest of the last w of them
  (f (n + 1 - w), …, f n, fewer when n + 1 < w). A window of width one is the term itself, a window wider than
  the prefix is the whole prefix, and joining a window with the window of the same width that ends w places
  earlier doubles the width (winMax_double): this is why ten doubling steps of "take the maximum with the entry
  s places earlier, when there is one" turn a column of 1024 entries into its running maximum (scan1024).
  runMax_add splits a prefix at an offset; foldl_max reads a left fold of max as a finite supremum.
-/
import Mathlib.Data.EReal.Basic
import Mathlib.Data.Finset.Lattice.Fold
import Mathlib.Order.Interval.Finset.Nat

namespace RunningMax

/-- The largest of f 0, …, f n. -/
noncomputable def runMax (f : ℕ → EReal) (n : ℕ) : EReal := (Finset.range (n + 1)).sup f

/-- The largest of the last w terms up to n: f k for n + 1 - w ≤ k ≤ n. -/
noncomputable def winMax (f : ℕ → EReal) (w n : ℕ) : EReal := (Finset.Ico (n + 1 - w) (n + 1)).sup f

/-- One doubling step at distance s: each entry joined with the entry s places earlier, when there is one. -/
noncomputable def scanStep (s : ℕ) (y : ℕ → EReal) : ℕ → EReal :=
  fun r => max (y r) (if s ≤ r then y (r - s) else ⊥)

theorem runMax_zero (f : ℕ → EReal) : runMax f 0 = f 0 := by
  simp [runMax]

theorem runMax_succ (f : ℕ → EReal) (n : ℕ) : runMax f (n + 1) = max (runMax f n) (f (n + 1)) := by
  unfold runMax
  rw [Finset.range_add_one, Finset.sup_insert]
  exact max_comm _ _

theorem le_runMax (f : ℕ → EReal) {k n : ℕ} (h : k ≤ n) : f k ≤ runMax f n := by
  exact Finset.le_sup (f := f) (Finset.mem_range.mpr (by omega))

theorem runMax_le (f : ℕ → EReal) (n : ℕ) (a : EReal) (h : ∀ k, k ≤ n → f k ≤ a) : runMax f n ≤ a := by
  refine Finset.sup_le (fun k hk => h k ?_)
  have := Finset.mem_range.mp hk
  omega

/-- The running maximum depends only on the terms up to n. -/
theorem runMax_congr (f g : ℕ → EReal) (n : ℕ) (h : ∀ k, k ≤ n → f k = g k) : runMax f n = runMax g n := by
  refine Finset.sup_congr rfl (fun k hk => h k ?_)
  have := Finset.mem_range.mp hk
  omega

theorem winMax_one (f : ℕ → EReal) (n : ℕ) : winMax f 1 n = f n := by
  unfold winMax
  rw [Nat.add_sub_cancel, Nat.Ico_succ_singleton, Finset.sup_singleton]

/-- Joining a window with the window of the same width ending w places earlier doubles the width. -/
theorem winMax_double (f : ℕ → EReal) (w n : ℕ) (hw : 0 < w) :
    max (winMax f w n) (if w ≤ n then winMax f w (n - w) else ⊥) = winMax f (2 * w) n := by
  unfold winMax
  split_ifs with h
  · -- the earlier window ends where the later one starts, and the two tile the doubled window
    have e1 : n - w + 1 = n + 1 - w := by omega
    have e2 : n - w + 1 - w = n + 1 - 2 * w := by omega
    rw [e2, e1, max_comm, ← Finset.sup_union,
      Finset.Ico_union_Ico_eq_Ico (by omega) (by omega)]
  · -- both windows already reach back to the start of the sequence
    have e1 : n + 1 - w = 0 := by omega
    have e2 : n + 1 - 2 * w = 0 := by omega
    rw [e1, e2, max_bot_right]

/-- A window at least as wide as the prefix is the whole prefix. -/
theorem winMax_eq_runMax (f : ℕ → EReal) (w n : ℕ) (h : n < w) : winMax f w n = runMax f n := by
  unfold winMax runMax
  rw [Nat.sub_eq_zero_of_le (by omega), Finset.range_eq_Ico]

/-- A doubling step on windows of width w, as functions. -/
theorem scanStep_winMax (f : ℕ → EReal) (w : ℕ) (hw : 0 < w) : scanStep w (winMax f w) = winMax f (2 * w) := by
  funext r
  exact winMax_double f w r hw

/-- A doubling step at r reads its argument only at r and at r - s. -/
theorem scanStep_congr (s : ℕ) (y z : ℕ → EReal) (r : ℕ) (h : ∀ k, k ≤ r → y k = z k) :
    scanStep s y r = scanStep s z r := by
  unfold scanStep
  rw [h r le_rfl]
  split_ifs with hs
  · rw [h (r - s) (Nat.sub_le r s)]
  · rfl

/-- Ten doubling steps, at distances 1, 2, …, 512, give the running maximum on the first 1024 places. -/
theorem scan1024 (f : ℕ → EReal) (r : ℕ) (hr : r < 1024) :
    scanStep 512 (scanStep 256 (scanStep 128 (scanStep 64 (scanStep 32 (scanStep 16 (scanStep 8 (scanStep 4
      (scanStep 2 (scanStep 1 f))))))))) r = runMax f r := by
  -- a window of width one is the sequence itself; each step doubles the width, up to 1024
  have h0 : winMax f 1 = f := funext (winMax_one f)
  have h1 : scanStep 1 f = winMax f 2 := by
    have h := scanStep_winMax f 1 Nat.one_pos
    rw [h0] at h
    exact h
  rw [h1,
    show scanStep 2 (winMax f 2) = winMax f 4 from scanStep_winMax f 2 (by norm_num),
    show scanStep 4 (winMax f 4) = winMax f 8 from scanStep_winMax f 4 (by norm_num),
    show scanStep 8 (winMax f 8) = winMax f 16 from scanStep_winMax f 8 (by norm_num),
    show scanStep 16 (winMax f 16) = winMax f 32 from scanStep_winMax f 16 (by norm_num),
    show scanStep 32 (winMax f 32) = winMax f 64 from scanStep_winMax f 32 (by norm_num),
    show scanStep 64 (winMax f 64) = winMax f 128 from scanStep_winMax f 64 (by norm_num),
    show scanStep 128 (winMax f 128) = winMax f 256 from scanStep_winMax f 128 (by norm_num),
    show scanStep 256 (winMax f 256) = winMax f 512 from scanStep_winMax f 256 (by norm_num),
    show scanStep 512 (winMax f 512) = winMax f 1024 from scanStep_winMax f 512 (by norm_num)]
  exact winMax_eq_runMax f 1024 r hr

/-- Splitting a prefix at an offset a > 0: the prefix before a, joined with the prefix of the shifted sequence. -/
theorem runMax_add (f : ℕ → EReal) (a r : ℕ) (ha : 0 < a) :
    runMax f (a + r) = max (runMax f (a - 1)) (runMax (fun k => f (a + k)) r) := by
  apply le_antisymm
  · -- a term below the offset sits in the first prefix, a term at or above it in the shifted one
    refine runMax_le f (a + r) _ (fun k hk => ?_)
    by_cases hka : k < a
    · exact le_trans (le_runMax f (by omega)) (le_max_left _ _)
    · have hk' : f k = (fun j => f (a + j)) (k - a) := by
        show f k = f (a + (k - a))
        congr 1
        omega
      rw [hk']
      exact le_trans (le_runMax (fun j => f (a + j)) (by omega)) (le_max_right _ _)
  · refine max_le (runMax_le f (a - 1) _ (fun k hk => le_runMax f (by omega))) ?_
    refine runMax_le (fun k => f (a + k)) r _ (fun k hk => ?_)
    exact le_runMax f (k := a + k) (by omega)

/-- A left fold of max over a list, from v, is v joined with the supremum over the list's members. -/
theorem foldl_max {ι : Type} [DecidableEq ι] (l : List ι) (g : ι → EReal) (v : EReal) :
    l.foldl (fun r n => max r (g n)) v = max v (l.toFinset.sup g) := by
  induction l generalizing v with
  | nil => simp
  | cons x xs ih =>
    rw [List.foldl_cons, ih, List.toFinset_cons, Finset.sup_insert, max_assoc]

end RunningMax
-- ==== Proof.Spec.lean ====
/-
  The function both programs compute.

  For a batch b, a time l and an output feature o: take, for every input feature v, the running maximum over time
  max (codes[b, 0, v], …, codes[b, l, v]), multiply it by the weight W[o, v], add up over v, and add the bias
  bias[o]. proj is that number; Gfull tabulates it over all 4096 times and G over the first 4095, which is the
  result both programs return.
-/
import proofs.«163926_j59124519797164_1_alg».proof.Proof.LibRunningMax
import Idealize.ShloMosaic.PureOps.Ideal
import Idealize.ShloMosaic.Lib.ValueIdx

noncomputable section

namespace Cert.CumMaxProj

open Idealize.ShloMosaic Idealize.ShloMosaic.ValueIdx RunningMax

/-- Column (b, ·, v) of the codes as a sequence over time (⊥ past the last time, never read). -/
def col (codes : FVec Ideal ⟨3, ![16, 4096, 256]⟩ .f32) (b : Fin 16) (v : Fin 256) : ℕ → EReal :=
  fun k => if h : k < 4096 then codes (ix3 b ⟨k, h⟩ v) else ⊥

/-- The projected running maximum at batch b, time l, output feature o. -/
def proj (codes : FVec Ideal ⟨3, ![16, 4096, 256]⟩ .f32) (W : FVec Ideal ⟨2, ![256, 256]⟩ .f32)
    (bias : FVec Ideal ⟨1, ![256]⟩ .f32) (b : Fin 16) (l : ℕ) (o : Fin 256) : EReal :=
  (∑ v : Fin 256, runMax (col codes b v) l * W (ix2 o v)) + bias (ix1 o)

/-- proj over all 4096 times: what the kernel's region leaves in its output array. -/
def Gfull (codes : FVec Ideal ⟨3, ![16, 4096, 256]⟩ .f32) (W : FVec Ideal ⟨2, ![256, 256]⟩ .f32)
    (bias : FVec Ideal ⟨1, ![256]⟩ .f32) : FVec Ideal ⟨3, ![16, 4096, 256]⟩ .f32 :=
  fun j => proj codes W bias (j 0) (j 1).val (j 2)

/-- proj over the first 4095 times: the result of both programs. -/
def G (codes : FVec Ideal ⟨3, ![16, 4096, 256]⟩ .f32) (W : FVec Ideal ⟨2, ![256, 256]⟩ .f32)
    (bias : FVec Ideal ⟨1, ![256]⟩ .f32) : FVec Ideal ⟨3, ![16, 4095, 256]⟩ .f32 :=
  fun j => proj codes W bias (j 0) (j 1).val (j 2)

end Cert.CumMaxProj

end
-- ==== Proof.RefValue.lean ====
/-
  The reference program's result is the specification G.

  First the windowed maximum: at batch b, time l and feature v, a window of 4096 places along time that ends at l,
  with the 4095 places before the start of the sequence holding −∞, folds to the running maximum of the column up
  to l. Then the remaining steps of the reference (drop the last time, contract with the weights, add the bias)
  are read at an index and compared with G term by term.
-/
import proofs.«163926_j59124519797164_1_alg».proof.Proof.Gen.ReferenceIdeal
import proofs.«163926_j59124519797164_1_alg».proof.Proof.Spec
import proofs.«163926_j59124519797164_1_alg».proof.Proof.RefRead
import Idealize.ShloMosaic.Lib.ValueIdx
import Idealize.ShloMosaic.PureOps.Ideal.Laws

noncomputable section

namespace Cert.CumMaxProj

open Cert.ReferenceIdeal Cert.ReferenceIdeal.Gen Idealize.ShloMosaic Idealize.ShloMosaic.ValueIdx RunningMax

/-- The bit pattern of −∞ reads as the least extended real. -/
theorem negInf_eq_bot : Ideal.ofBits .f32 0xFF800000#32 = (⊥ : EReal) := by
  simp [Ideal.ofBits, Ideal.ieee]

/-- A position of the window that falls on the sequence holds an element of the column at a time no later than l:
    at window offset w the time is l + w₁ − 4095, and w₁ ≤ 4095. -/
theorem elem_le (x : FVec Ideal S16x4096x256 .f32) (b : Fin 16) (l : Fin 4096) (v : Fin 256)
    (w : (⟨3, ![1, 4096, 1]⟩ : Shape).Idx)
    (hin : ∀ a : Fin 3, (![0, 4095, 0] : Fin 3 → Nat) a ≤ ((ix3 b l v) a).val * (![1, 1, 1] : Fin 3 → Nat) a + (w a).val
        ∧ ((ix3 b l v) a).val * (![1, 1, 1] : Fin 3 → Nat) a + (w a).val - (![0, 4095, 0] : Fin 3 → Nat) a
            < (![16, 4096, 256] : Fin 3 → Nat) a) :
    x (fun a => ⟨((ix3 b l v) a).val * (![1, 1, 1] : Fin 3 → Nat) a + (w a).val - (![0, 4095, 0] : Fin 3 → Nat) a,
        (hin a).2⟩) ≤ runMax (col x b v) l.val := by
  have h0 : (w 0).val < 1 := (w 0).isLt
  have h1 : (w 1).val < 4096 := (w 1).isLt
  have h2 : (w 2).val < 1 := (w 2).isLt
  have hl : l.val < 4096 := l.isLt
  have hm : 4095 ≤ l.val * 1 + (w 1).val ∧ l.val * 1 + (w 1).val - 4095 < 4096 := hin 1
  obtain ⟨k, hk⟩ : ∃ k : ℕ, k + 4095 = l.val + (w 1).val := ⟨l.val + (w 1).val - 4095, by omega⟩
  have hk' : k < 4096 := by omega
  have e : x (fun a => ⟨((ix3 b l v) a).val * (![1, 1, 1] : Fin 3 → Nat) a + (w a).val - (![0, 4095, 0] : Fin 3 → Nat) a,
      (hin a).2⟩) = col x b v k := by
    unfold col
    rw [dif_pos hk']
    refine congrArg x (funext fun a => Fin.ext ?_)
    match a with
    | ⟨0, _⟩ => show b.val * 1 + (w 0).val - 0 = b.val; omega
    | ⟨1, _⟩ => show l.val * 1 + (w 1).val - 4095 = k; omega
    | ⟨2, _⟩ => show v.val * 1 + (w 2).val - 0 = v.val; omega
  rw [e]
  exact le_runMax _ (by omega)

/-- For a time k ≤ l the window offset j with j + l = k + 4095 falls on the sequence. -/
theorem offset_in (b : Fin 16) (l : Fin 4096) (v : Fin 256) (k j : ℕ) (hk : k ≤ l.val) (hj : j + l.val = k + 4095)
    (hj' : j < 4096) (a : Fin 3) :
    (![0, 4095, 0] : Fin 3 → Nat) a ≤ ((ix3 b l v) a).val * (![1, 1, 1] : Fin 3 → Nat) a
          + ((ix3 (⟨0, Nat.one_pos⟩ : Fin 1) (⟨j, hj'⟩ : Fin 4096) (⟨0, Nat.one_pos⟩ : Fin 1)) a).val
      ∧ ((ix3 b l v) a).val * (![1, 1, 1] : Fin 3 → Nat) a
          + ((ix3 (⟨0, Nat.one_pos⟩ : Fin 1) (⟨j, hj'⟩ : Fin 4096) (⟨0, Nat.one_pos⟩ : Fin 1)) a).val
          - (![0, 4095, 0] : Fin 3 → Nat) a < (![16, 4096, 256] : Fin 3 → Nat) a := by
  have hl : l.val < 4096 := l.isLt
  have hb : b.val < 16 := b.isLt
  have hv : v.val < 256 := v.isLt
  match a with
  | ⟨0, _⟩ => show 0 ≤ b.val * 1 + 0 ∧ b.val * 1 + 0 - 0 < 16; omega
  | ⟨1, _⟩ => show 4095 ≤ l.val * 1 + j ∧ l.val * 1 + j - 4095 < 4096; omega
  | ⟨2, _⟩ => show 0 ≤ v.val * 1 + 0 ∧ v.val * 1 + 0 - 0 < 256; omega

/-- … and the element there is the column's element at time k. -/
theorem offset_elem (x : FVec Ideal S16x4096x256 .f32) (b : Fin 16) (l : Fin 4096) (v : Fin 256) (k j : ℕ)
    (hk : k ≤ l.val) (hj : j + l.val = k + 4095) (hj' : j < 4096)
    (hin : ∀ a : Fin 3, (![0, 4095, 0] : Fin 3 → Nat) a ≤ ((ix3 b l v) a).val * (![1, 1, 1] : Fin 3 → Nat) a
          + ((ix3 (⟨0, Nat.one_pos⟩ : Fin 1) (⟨j, hj'⟩ : Fin 4096) (⟨0, Nat.one_pos⟩ : Fin 1)) a).val
      ∧ ((ix3 b l v) a).val * (![1, 1, 1] : Fin 3 → Nat) a
          + ((ix3 (⟨0, Nat.one_pos⟩ : Fin 1) (⟨j, hj'⟩ : Fin 4096) (⟨0, Nat.one_pos⟩ : Fin 1)) a).val
          - (![0, 4095, 0] : Fin 3 → Nat) a < (![16, 4096, 256] : Fin 3 → Nat) a) :
    col x b v k = x (fun a => ⟨((ix3 b l v) a).val * (![1, 1, 1] : Fin 3 → Nat) a
          + ((ix3 (⟨0, Nat.one_pos⟩ : Fin 1) (⟨j, hj'⟩ : Fin 4096) (⟨0, Nat.one_pos⟩ : Fin 1)) a).val
          - (![0, 4095, 0] : Fin 3 → Nat) a, (hin a).2⟩) := by
  have hl : l.val < 4096 := l.isLt
  have hk' : k < 4096 := by omega
  unfold col
  rw [dif_pos hk']
  refine congrArg x (funext fun a => Fin.ext ?_)
  match a with
  | ⟨0, _⟩ => show b.val = b.val * 1 + 0 - 0; omega
  | ⟨1, _⟩ => show k = l.val * 1 + j - 4095; omega
  | ⟨2, _⟩ => show v.val = v.val * 1 + 0 - 0; omega

/-- The windowed maximum with −∞ before the start of the sequence is the running maximum, for any initial value
    that reads as ⊥: the fold of max is the supremum of its terms, each term is ⊥ or an element at a time ≤ l, and
    every such element is a term. -/
theorem reduceWindow_max_apply (x : FVec Ideal S16x4096x256 .f32) (init : S_.Idx → Ideal .f32)
    (hinit : init (Shape.Idx.first h_S_) = (⊥ : EReal)) (b : Fin 16) (l : Fin 4096) (v : Fin 256) :
    Host.reduceWindow FloatOps.maximumf ![1, 4096, 1] ![1, 1, 1] ![0, 4095, 0] ![0, 0, 0] x init
        reduceWindows_S16x4096x256_S16x4096x256_w1s1p0_0_w4096s1p4095_0_w1s1p0_0 h_S_ (ix3 b l v)
      = runMax (col x b v) l.val := by
  unfold Host.reduceWindow
  dsimp only
  rw [hinit]
  simp only [Ideal.maximumf_def]
  rw [foldl_max, List.toFinset_finRange, max_eq_right bot_le]
  apply le_antisymm
  · refine Finset.sup_le fun n _ => ?_
    split
    · rename_i hin
      exact elem_le x b l v _ hin
    · exact bot_le
  · refine runMax_le _ _ _ fun k hk => ?_
    have hl : l.val < 4096 := l.isLt
    obtain ⟨j, hj⟩ : ∃ j : ℕ, j + l.val = k + 4095 := ⟨k + 4095 - l.val, by omega⟩
    have hj' : j < 4096 := by omega
    refine le_trans ?_ (Finset.le_sup (Finset.mem_univ ((Shape.rowMajor ⟨3, ![1, 4096, 1]⟩)
      (ix3 (⟨0, Nat.one_pos⟩ : Fin 1) (⟨j, hj'⟩ : Fin 4096) (⟨0, Nat.one_pos⟩ : Fin 1)))))
    simp only [Equiv.symm_apply_apply]
    split
    · rename_i hin
      exact le_of_eq (offset_elem x b l v k j hk hj hj' hin)
    · rename_i hout
      exact absurd (offset_in b l v k j hk hj hj') hout

/-- The reference's windowed maximum, read at an index. -/
theorem cummax_apply (x : FVec Ideal S16x4096x256 .f32) (b : Fin 16) (l : Fin 4096) (v : Fin 256) :
    Host.reduceWindow FloatOps.maximumf ![1, 4096, 1] ![1, 1, 1] ![0, 4095, 0] ![0, 0, 0] x
        (broadcastInDim S_ ![] bcast_S_S_ (constant S_ .f32 0xFF800000#32))
        reduceWindows_S16x4096x256_S16x4096x256_w1s1p0_0_w4096s1p4095_0_w1s1p0_0 h_S_ (ix3 b l v)
      = runMax (col x b v) l.val :=
  reduceWindow_max_apply x _ negInf_eq_bot b l v

/-- The reference's result at the ideal values is G: at (b, l, o) the sum over the features v of the windowed
    maximum at (b, l, v) times the weight at (o, v), plus the bias at o, and the windowed maximum is the running
    maximum of column (b, v) up to l. -/
theorem ref_eq (x1 : FVec Ideal S16x4096x256 .f32) (x3 : FVec Ideal S256x256 .f32) (x4 : FVec Ideal S256 .f32) :
    Cert.ReferenceIdeal.ReadP.val_main_v5 (F := Ideal) x1 x3 x4 = G x1 x3 x4 := by
  funext i
  obtain ⟨b, l, o, rfl⟩ : ∃ (b : Fin 16) (l : Fin 4095) (o : Fin 256), i = ix3 b l o := ⟨i 0, i 1, i 2, eq_ix3 i⟩
  rw [ReadP.val_main_v5_apply, ReadP.val_main_v2_apply, ReadP.val_main_v4_apply, ReadP.val_main_v3_apply]
  show _ + _ = (∑ v : Fin 256, runMax (col x1 b v) l.val * x3 (ix2 o v)) + x4 (ix1 o)
  refine congrArg₂ (· + ·) (Finset.sum_congr rfl fun k _ => ?_) ?_
  · rw [ReadP.val_main_v1_apply]
    refine congrArg₂ (· * ·) ?_ ?_
    · have e1 : ReadP.idx_main_v1 (ReadP.lidx_main_v2 (ix3 b l o) k)
          = ix3 b (⟨l.val, by have := l.isLt; omega⟩ : Fin 4096) k :=
        funext fun a => Fin.ext (by match a with | ⟨0, _⟩ => rfl | ⟨1, _⟩ => rfl | ⟨2, _⟩ => rfl)
      rw [e1]
      unfold ReadP.val_main_v0 ReadP.val_main_call0_v0 ReadP.val_main_call0_cst
      exact cummax_apply x1 b _ k
    · exact congrArg x3 (funext fun a => Fin.ext (by match a with | ⟨0, _⟩ => rfl | ⟨1, _⟩ => rfl))
  · exact congrArg x4 (funext fun a => Fin.ext (by match a with | ⟨0, _⟩ => rfl))

end Cert.CumMaxProj

end
-- ==== Proof.Blocks.lean ====
/-
  The three input blocks of a grid point, read as entries of the argument arrays.

  Grid point t is batch t / 4 and tile t % 4. Its tile of codes holds rows 1024 * (t % 4) + r of batch t / 4; the
  weight block is the whole transposed weight matrix in the narrower float format, which over the extended reals is
  W with its two indices exchanged; the bias block is the bias vector as one row.
-/
import proofs.«163926_j59124519797164_1_alg».proof.Proof.Gen.KernelIdeal.Frame
import proofs.«163926_j59124519797164_1_alg».proof.Proof.Spec
import Idealize.ShloMosaic.Lib.Pipeline.Value
import Idealize.ShloMosaic.Lib.ValueIdx
import Idealize.ShloMosaic.Lib.StableHlo.Run

set_option maxRecDepth 16384

noncomputable section

namespace Cert.CumMaxProj

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The codes, the weights and the bias as the program finds them. -/
abbrev codesOf (c : Dev nD) : FVec Ideal S16x4096x256 .f32 := m ((c.tc : Thread nD τ).loc main_arg1)
abbrev weightOf (c : Dev nD) : FVec Ideal S256x256 .f32 := m ((c.tc : Thread nD τ).loc main_arg3)
abbrev biasOf (c : Dev nD) : FVec Ideal S256 .f32 := m ((c.tc : Thread nD τ).loc main_arg4)

/-- The blocks of a point, at their literal types. -/
abbrev tileAt (c : Dev nD) (t : Fin cfg0.N) : Vec Ideal S1x1024x256 .f32 := iblk m c 0 t
abbrev wtAt (c : Dev nD) (t : Fin cfg0.N) : Vec Ideal S256x256 .bf16 := iblk m c 1 t
abbrev brAt (c : Dev nD) (t : Fin cfg0.N) : Vec Ideal S1x256 .f32 := iblk m c 2 t

theorem lt64 (t : Fin cfg0.N) : t.val < 64 := lt_of_lt_of_eq t.isLt (show cfg0.N = 64 from N_0)

/-- The codes window's block index at point t is (t / 4, t % 4, 0); the weight and bias windows never move. -/
theorem codes_index : ∀ t : Fin grid0.N, win0_0.index t 0 = t.val / 4 ∧ win0_0.index t 1 = t.val % 4 ∧ win0_0.index t 2 = 0 := by
  decide +kernel
theorem weight_index : ∀ t : Fin grid0.N, win0_1.index t 0 = 0 ∧ win0_1.index t 1 = 0 := by decide +kernel
theorem bias_index : ∀ t : Fin grid0.N, win0_2.index t 0 = 0 ∧ win0_2.index t 1 = 0 := by decide +kernel
theorem out_index : ∀ t : Fin grid0.N, win0_3.index t 0 = t.val / 4 ∧ win0_3.index t 1 = t.val % 4 ∧ win0_3.index t 2 = 0 := by
  decide +kernel

/-- Row r, column v of point t's tile is the code at batch t / 4, time 1024 * (t % 4) + r, feature v. -/
theorem tile_apply (c : Dev nD) (t : Fin cfg0.N) (r : Fin 1024) (v : Fin 256) :
    tileAt m c t (ix3 0 r v)
      = codesOf m c (ix3 ⟨t.val / 4, by have := lt64 t; omega⟩ ⟨1024 * (t.val % 4) + r.val, by have := r.isLt; omega⟩ v) := by
  have hi := codes_index t
  unfold tileAt iblk
  rw [View.read_apply]
  show V m c main_arg1 _ = _
  rw [V_main_arg1]
  congr 1
  funext a
  apply Fin.ext
  match a with
  | ⟨0, _⟩ => show win0_0.index t 0 * 1 + 1 * 0 = t.val / 4; rw [hi.1]; omega
  | ⟨1, _⟩ => show win0_0.index t 1 * 1024 + 1 * r.val = 1024 * (t.val % 4) + r.val; rw [hi.2.1]; omega
  | ⟨2, _⟩ => show win0_0.index t 2 * 256 + 1 * v.val = v.val; rw [hi.2.2]; omega

/-- What the host lines before the region leave in the weight window's array: the transposed weights in the narrower
    format; and in the bias window's array: the bias as one row. -/
theorem V_weight (c : Dev nD) :
    (V m c main_v1 : FVec Ideal S256x256 .bf16)
      = truncf .bf16 (transpose S256x256 [1, 0] (weightOf m c) transposes_S256x256_S256x256_1_0) bitsLt_bf16_f32 := by
  show StableHlo.after hostOps0 (fun b => m (c, b)) (Proc.devRef .tc main_v1) = _
  after_results <;> rfl

theorem V_bias (c : Dev nD) :
    (V m c main_v2 : FVec Ideal S1x256 .f32) = shapeCast S1x256 (biasOf m c) shapeCasts_S256_S1x256 := by
  show StableHlo.after hostOps0 (fun b => m (c, b)) (Proc.devRef .tc main_v2) = _
  after_results <;> rfl

/-- Entry (v, o) of the weight block is W[o, v]. -/
theorem wt_apply (c : Dev nD) (t : Fin cfg0.N) (v o : Fin 256) :
    wtAt m c t (ix2 v o) = weightOf m c (ix2 o v) := by
  have hi := weight_index t
  unfold wtAt iblk
  rw [View.read_apply]
  show V m c main_v1 _ = _
  rw [V_weight]
  refine (transpose_apply [1, 0] (weightOf m c) transposes_S256x256_S256x256_1_0 _ (ix2 o v) (fun b => ?_)).trans rfl
  match b with
  | ⟨0, _⟩ => show v.val = win0_1.index t 0 * 256 + 1 * v.val; rw [hi.1]; omega
  | ⟨1, _⟩ => show o.val = win0_1.index t 1 * 256 + 1 * o.val; rw [hi.2]; omega

/-- Entry (0, o) of the bias block is bias[o]. -/
theorem br_apply (c : Dev nD) (t : Fin cfg0.N) (o : Fin 256) :
    brAt m c t (ix2 0 o) = biasOf m c (ix1 o) := by
  have hi := bias_index t
  unfold brAt iblk
  rw [View.read_apply]
  show V m c main_v2 _ = _
  rw [V_bias]
  refine shapeCast_apply (biasOf m c) shapeCasts_S256_S1x256 _ (ix1 o) ?_
  rw [Shape.rowMajor_val_one, Shape.rowMajor_val_two]
  show o.val = (win0_2.index t 0 * 1 + 1 * 0) * 256 + (win0_2.index t 1 * 256 + 1 * o.val)
  rw [hi.1, hi.2]; omega

end Cert.CumMaxProj

end
-- ==== Proof.Pieces.lean ====
/-
  What one grid point leaves behind, as the body's arithmetic.

  The body of the kernel stores twice into the carried row (a reset to minus infinity at a batch's first tile, then the
  tile's last row of running maxima) and once into the output block. Read back, the carried row after a point is the
  last store's value and the output block is its one store's value; each is the body's pure arithmetic applied to the
  tile that was loaded and to the row carried in (the reset row itself at a batch's first tile).
-/
import proofs.«163926_j59124519797164_1_alg».proof.Proof.Gen.KernelIdeal.Frame
import Idealize.ShloMosaic.Lib.Pipeline.Value

set_option maxRecDepth 16384

noncomputable section

namespace Cert.CumMaxProj

open Idealize.ShloMosaic Idealize.ShloMosaic.TcCoe Idealize.ShloMosaic.Tactic
open Idealize.SL Idealize.SL.Sem
open Cert.KernelIdeal Cert.KernelIdeal.Gen

variable {F : FTy → Type} [FloatOps F]

theorem off2_zero : (![0, 0] : Fin 2 → Nat) = fun _ => 0 := by decide
theorem off3_zero : (![0, 0, 0] : Fin 3 → Nat) = fun _ => 0 := by decide

/-- A tile's rows after the ten doubling steps, joined with the row carried in: the running maximum over the batch's
    rows up to each row of the tile. -/
def fullOf (x0 : Vec F S1x1024x256 .f32) (carry : Vec F S1x256 .f32) : FVec F S1024x256 .f32 :=
  k0_pay7 (k0_pay4 x0) (k0_pay5 x0) k0_pay6 (Scalar.ofBits .f32 0xFF800000#32) carry

/-- The row carried out of a tile: the last row of `fullOf`. -/
def carryOf (x0 : Vec F S1x1024x256 .f32) (carry : Vec F S1x256 .f32) : FVec F S1x256 .f32 :=
  k0_pay1 (k0_pay8 (k0_pay4 x0) (k0_pay5 x0) k0_pay6 (Scalar.ofBits .f32 0xFF800000#32) carry)

/-- A later tile of a batch: the carried row becomes the tile's last running maximum over the row carried in. -/
theorem sout0_B_0_eq (c : Dev nD) (i : grid0.Coords) (arg2 : Memref sig .tc .vmem S1x1024x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x1024x256 .f32) (harg5 : arg5.IsWhole) (arg6 : Memref sig .tc .vmem S1x256 .f32) (harg6 : arg6.IsWhole) (hc0 : ¬cond0_0 i)
    (x0 : Vec F S1x1024x256 .f32) (x1 : Vec F S256x256 .bf16) (x2 : Vec F S1x256 .f32) (xs0 : Vec F S1x256 .f32) :
    sout0_B_0 c i arg2 harg2 arg3 harg3 arg4 harg4 arg5 harg5 arg6 harg6 hc0 x0 x1 x2 xs0 = carryOf x0 xs0 := by
  unfold sout0_B_0
  rw [View.read_writes_eq_canon _ _ _ (scover0_B_0 c i arg2 harg2 arg3 harg3 arg4 harg4 arg5 harg5 arg6 harg6 hc0 x0 x1 x2 xs0)]
  unfold kernelRun0_B; dsimp only; sl_unfold_words
  rw [View.canon_unit_zero off2_zero]
  simp only [View.readAt_eq_ld, harg2.read_unread, harg6.read_unread, View.ld_unit_zero (S := S1x1024x256) off3_zero,
    View.ld_unit_zero (S := S1x256) off2_zero]
  rfl

/-- A later tile of a batch: the output block is the projection of the tile's running maxima over the row carried in. -/
theorem out0_B_3_eq (c : Dev nD) (i : grid0.Coords) (arg2 : Memref sig .tc .vmem S1x1024x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x1024x256 .f32) (harg5 : arg5.IsWhole) (arg6 : Memref sig .tc .vmem S1x256 .f32) (harg6 : arg6.IsWhole) (hc0 : ¬cond0_0 i)
    (x0 : Vec F S1x1024x256 .f32) (x1 : Vec F S256x256 .bf16) (x2 : Vec F S1x256 .f32) (xs0 : Vec F S1x256 .f32) :
    out0_B_3 c i arg2 harg2 arg3 harg3 arg4 harg4 arg5 harg5 arg6 harg6 hc0 x0 x1 x2 xs0 = k0_pay2 (fullOf x0 xs0) x1 x2 := by
  unfold out0_B_3
  rw [View.read_writes_eq_canon _ _ _ (cover0_B_3 c i arg2 harg2 arg3 harg3 arg4 harg4 arg5 harg5 arg6 harg6 hc0 x0 x1 x2 xs0)]
  unfold kernelRun0_B; dsimp only; sl_unfold_words
  rw [View.canon_unit_zero off3_zero]
  simp only [View.readAt_eq_ld, harg2.read_unread, harg3.read_unread, harg4.read_unread, harg6.read_unread,
    View.ld_unit_zero (S := S1x1024x256) off3_zero, View.ld_unit_zero (S := S1x256) off2_zero,
    View.ld_unit_zero (S := S256x256) off2_zero]
  rfl

/-- A batch's first tile: the carried row is reset first, so the row carried in is the reset row. -/
theorem sout0_A_0_eq (c : Dev nD) (i : grid0.Coords) (arg2 : Memref sig .tc .vmem S1x1024x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x1024x256 .f32) (harg5 : arg5.IsWhole) (arg6 : Memref sig .tc .vmem S1x256 .f32) (harg6 : arg6.IsWhole) (hc0 : cond0_0 i)
    (x0 : Vec F S1x1024x256 .f32) (x1 : Vec F S256x256 .bf16) (x2 : Vec F S1x256 .f32) :
    sout0_A_0 c i arg2 harg2 arg3 harg3 arg4 harg4 arg5 harg5 arg6 harg6 hc0 x0 x1 x2 = carryOf x0 k0_pay3 := by
  unfold sout0_A_0
  rw [View.read_writes_eq_canon _ _ _ (scover0_A_0 c i arg2 harg2 arg3 harg3 arg4 harg4 arg5 harg5 arg6 harg6 hc0 x0 x1 x2)]
  unfold kernelRun0_A; dsimp only; sl_unfold_words
  rw [View.canon_cons_unit_zero (S := S1x256) off2_zero]
  simp only [View.readAt_eq_ld, harg2.read_unread, View.ld_unit_zero (S := S1x1024x256) off3_zero,
    View.readCov_unit_zero (S := S1x256) _ off2_zero]
  rfl

/-- A batch's first tile: the output block over the reset row. -/
theorem out0_A_3_eq (c : Dev nD) (i : grid0.Coords) (arg2 : Memref sig .tc .vmem S1x1024x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S1x1024x256 .f32) (harg5 : arg5.IsWhole) (arg6 : Memref sig .tc .vmem S1x256 .f32) (harg6 : arg6.IsWhole) (hc0 : cond0_0 i)
    (x0 : Vec F S1x1024x256 .f32) (x1 : Vec F S256x256 .bf16) (x2 : Vec F S1x256 .f32) :
    out0_A_3 c i arg2 harg2 arg3 harg3 arg4 harg4 arg5 harg5 arg6 harg6 hc0 x0 x1 x2 = k0_pay2 (fullOf x0 k0_pay3) x1 x2 := by
  unfold out0_A_3
  rw [View.read_writes_eq_canon _ _ _ (cover0_A_3 c i arg2 harg2 arg3 harg3 arg4 harg4 arg5 harg5 arg6 harg6 hc0 x0 x1 x2)]
  unfold kernelRun0_A; dsimp only; sl_unfold_words
  rw [View.canon_unit_zero off3_zero]
  simp only [View.readAt_eq_ld, harg2.read_unread, harg3.read_unread, harg4.read_unread,
    View.ld_unit_zero (S := S1x1024x256) off3_zero, View.ld_unit_zero (S := S1x256) off2_zero,
    View.ld_unit_zero (S := S256x256) off2_zero, View.readCov_unit_zero (S := S1x256) _ off2_zero]
  rfl

end Cert.CumMaxProj

end
-- ==== Proof.ScanPayload.lean ====
/-
  The values the kernel body computes, read at an index, at the extended reals.

  The body loads a tile of 1024 rows and 256 columns, and ten times joins every entry with the entry s rows
  above it (s = 1, 2, 4, …, 512; rows with no such entry are joined with −∞): after the ten steps row r holds the
  largest of rows 0, …, r of its column. It then joins every row with the row carried over from the previous
  tile, keeps the last row as the next carry, and multiplies the tile by the weights and adds the bias.
  Here each of these values is read at one index: the carry's reset is −∞ (reset_apply), the scanned tile at
  (r, v) is the running maximum of column v up to r joined with the carry at v (full_apply), the new carry is
  that at r = 1023 (carry_apply), and the stored block at (r, o) is the sum over v of the tile at (r, v) times
  the weights at (v, o), plus the bias at o (block_apply).
-/
import proofs.«163926_j59124519797164_1_alg».proof.Proof.Gen.KernelIdeal.Skeleton
import proofs.«163926_j59124519797164_1_alg».proof.Proof.LibRunningMax
import Idealize.ShloMosaic.Lib.ValueIdx
import Idealize.ShloMosaic.Lib.KernelVsHost
import Idealize.ShloMosaic.Lib.Pipeline.Value
import Idealize.ShloMosaic.Lib.ValueLayout
import Idealize.ShloMosaic.Lib.StableHlo.Predicate
import Idealize.ShloMosaic.PureOps.Ideal.Laws

noncomputable section

namespace Cert.CumMaxProj

open Cert.KernelIdeal Cert.KernelIdeal.Gen Idealize.ShloMosaic Idealize.ShloMosaic.ValueIdx RunningMax

/-- Column v of a tile as a sequence over the tile's rows (⊥ past the last row). -/
def tileCol (x0 : Vec Ideal S1x1024x256 .f32) (v : Fin 256) : ℕ → EReal :=
  fun k => if h : k < 1024 then x0 (ix3 0 ⟨k, h⟩ v) else ⊥

/-- The word 0xFF800000 read as a binary32 number is −∞. -/
theorem negInf_f32 : (Scalar.ofBits .f32 0xFF800000#32 : Ideal .f32) = ⊥ := by
  show Ideal.ofBits .f32 0xFF800000#32 = ⊥
  simp [Ideal.ofBits, Ideal.ieee]

/-- The row the first tile resets the carry to is −∞ everywhere. -/
theorem reset_apply (j : S1x256.Idx) : k0_pay3 (F := Ideal) j = ⊥ := by
  unfold k0_pay3
  rw [shapeCast_self]
  exact negInf_f32

/-! ## The product with the weights -/

/-- The left factor's row is the result's row. -/
theorem dot_lhs_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl

/-- The left factor's column is the summation index. -/
theorem dot_lhs_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q

/-- The right factor's row is the summation index. -/
theorem dot_rhs_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q

/-- The right factor's column is the result's column. -/
theorem dot_rhs_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-- The product into a zero accumulator, at (r, o): the sum over v of the left factor at (r, v) times the right
    factor at (v, o). -/
theorem dot_apply (a : FVec Ideal S1024x256 .bf16) (b : FVec Ideal S256x256 .bf16) (r : Fin 1024) (o : Fin 256) :
    matmul dot_S1024x256_S256x256_S1024x256_1_0_0_1_n_n none a b (constant S1024x256 .f32 0x00000000#32) (ix2 r o)
      = ∑ v : Fin 256, a (ix2 r v) * b (ix2 v o) := by
  simp only [matmul]
  rw [Ideal.matmul_constant_zero_apply,
    ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 r o)
      ((ValueIdx.contrEquiv1 dot_S1024x256_S256x256_S1024x256_1_0_0_1_n_n 256 rfl rfl).symm k) = ix2 r k :=
    funext fun c => Fin.ext (by
      match c with
      | ⟨0, _⟩ => exact dot_lhs_0 _ _
      | ⟨1, _⟩ => exact (dot_lhs_1 _ _).trans hk)
  have er : dot_S1024x256_S256x256_S1024x256_1_0_0_1_n_n.rhsIdx (ix2 r o)
      ((ValueIdx.contrEquiv1 dot_S1024x256_S256x256_S1024x256_1_0_0_1_n_n 256 rfl rfl).symm k) = ix2 k o :=
    funext fun c => Fin.ext (by
      match c with
      | ⟨0, _⟩ => exact (dot_rhs_0 _ _).trans hk
      | ⟨1, _⟩ => exact dot_rhs_1 _ _)
  rw [el, er]

/-- The stored block at (r, o): the scanned tile's row r against the weights' column o, plus the bias at o. -/
theorem block_apply (full : FVec Ideal S1024x256 .f32) (x1 : Vec Ideal S256x256 .bf16) (x2 : Vec Ideal S1x256 .f32)
    (r : Fin 1024) (o : Fin 256) :
    k0_pay2 full x1 x2 (ix3 0 r o) = (∑ v : Fin 256, full (ix2 r v) * x1 (ix2 v o)) + x2 (ix2 0 o) := by
  unfold k0_pay2
  refine (shapeCast_apply _ shapeCasts_S1024x256_S1x1024x256 (ix3 0 r o) (ix2 r o) ?_).trans ?_
  · rw [Shape.rowMajor_val_two, Shape.rowMajor_val_three]
    show r.val * 256 + o.val = ((0 : ℕ) * 1024 + r.val) * 256 + o.val
    omega
  rw [addf_apply, shapeCast_self, shapeCast_self, dot_apply]
  refine congrArg (_ + ·) ?_
  exact broadcastTo_apply x2 broadcasts_S1x256_S1024x256 (ix2 r o) (ix2 0 o) (fun c => match c with
    | ⟨0, _⟩ => by show (0 : ℕ) = if (1 : ℕ) = 1 then 0 else r.val; rw [if_pos rfl]
    | ⟨1, _⟩ => by show o.val = if (256 : ℕ) = 1 then 0 else o.val; rw [if_neg (by decide)])

/-! ## One doubling step -/

/-- One doubling step on a tile, at the distance the word sb holds: every entry joined with the entry that many
    rows above it, or with −∞ in the rows that have no such entry. -/
def stepV (sb : BitVec 32) (y : FVec Ideal S1024x256 .f32) : FVec Ideal S1024x256 .f32 :=
  maximumf y (select (cmpi .sge (iota .tc S1024x256 32 [0] iota_S1024x256_d0_w32) (broadcast S1024x256 sb))
    (dynamicRotate 0 sb none y rotates_S1024x256_d0) (broadcast S1024x256 (Scalar.ofBits .f32 0xFF800000#32)))

/-- The step read at (r, v): the rotation by s brings row r − s to row r, the row counter keeps it when s ≤ r and
    puts −∞ there otherwise. -/
theorem stepV_apply (y : FVec Ideal S1024x256 .f32) (sb : BitVec 32) (s : ℕ) (hs : sb.toNat = s) (hlt : s < 1024)
    (r : Fin 1024) (v : Fin 256) :
    stepV sb y (ix2 r v)
      = max (y (ix2 r v)) (if h : s ≤ r.val then y (ix2 ⟨r.val - s, by have := r.isLt; omega⟩ v) else ⊥) := by
  have hr : r.val < 1024 := r.isLt
  have hio : iota .tc S1024x256 32 [0] iota_S1024x256_d0_w32 (ix2 r v) = BitVec.ofNat 32 r.val :=
    iota_single_apply .tc S1024x256 32 0 iota_S1024x256_d0_w32 (ix2 r v)
  have hrn : (BitVec.ofNat 32 r.val).toNat = r.val := by
    rw [BitVec.toNat_ofNat]; exact Nat.mod_eq_of_lt (by omega)
  show max (y (ix2 r v)) (Scalar.select (IntOp.cmpi .sge (iota .tc S1024x256 32 [0] iota_S1024x256_d0_w32 (ix2 r v)) sb)
      (dynamicRotate 0 sb none y rotates_S1024x256_d0 (ix2 r v)) (Scalar.ofBits .f32 0xFF800000#32)) = _
  rw [hio]
  have hcmp : IntOp.cmpi .sge (BitVec.ofNat 32 r.val) sb = 1#1 ↔ s ≤ r.val := by
    rw [StableHlo.Predicate.sge_iff_toNat (by rw [hrn]; omega) (by rw [hs]; omega), hrn, hs]
  by_cases h : s ≤ r.val
  · rw [dif_pos h, hcmp.mpr h, select_one]
    refine congrArg (max _) ?_
    refine dynamicRotate_apply (0 : Fin 2) sb y rotates_S1024x256_d0 (ix2 r v) (ix2 ⟨r.val - s, by omega⟩ v) (fun b => ?_)
    match b with
    | ⟨0, _⟩ =>
      show r.val - s = if (0 : Fin 2) = 0 then (r.val + 1024 - sb.toNat % 1024) % 1024 else r.val
      rw [if_pos rfl, hs]; omega
    | ⟨1, _⟩ =>
      show v.val = if (1 : Fin 2) = 0 then (v.val + 256 - sb.toNat % 256) % 256 else v.val
      rw [if_neg (by decide)]
  · rw [dif_neg h, eq_zero_of_ne_one (fun hc => h (hcmp.mp hc)), select_zero, negInf_f32]

/-! ## Columns as sequences -/

/-- Column v of a tile of 1024 rows as a sequence over the rows (⊥ past the last row). -/
def colOf (y : FVec Ideal S1024x256 .f32) (v : Fin 256) : ℕ → EReal :=
  fun k => if h : k < 1024 then y (ix2 ⟨k, h⟩ v) else ⊥

theorem colOf_val (y : FVec Ideal S1024x256 .f32) (r : Fin 1024) (v : Fin 256) : colOf y v r.val = y (ix2 r v) := by
  unfold colOf
  rw [dif_pos r.isLt]

/-- On columns, a step on the tile is the doubling step on the sequence. -/
theorem colOf_stepV (y : FVec Ideal S1024x256 .f32) (sb : BitVec 32) (s : ℕ) (hs : sb.toNat = s) (hlt : s < 1024)
    (v : Fin 256) (k : ℕ) (hk : k < 1024) : colOf (stepV sb y) v k = scanStep s (colOf y v) k := by
  unfold scanStep
  show (if h : k < 1024 then stepV sb y (ix2 ⟨k, h⟩ v) else ⊥) = _
  rw [dif_pos hk, stepV_apply y sb s hs hlt ⟨k, hk⟩ v]
  refine congrArg₂ max (colOf_val y ⟨k, hk⟩ v).symm ?_
  by_cases h : s ≤ k
  · rw [dif_pos h, if_pos h]
    exact (colOf_val y ⟨k - s, by omega⟩ v).symm
  · rw [dif_neg h, if_neg h]

/-- A step keeps an agreement, on the tile's rows, between a tile's column and a sequence. -/
theorem colOf_stepV_of (y : FVec Ideal S1024x256 .f32) (g : ℕ → EReal) (sb : BitVec 32) (s : ℕ) (hs : sb.toNat = s)
    (hlt : s < 1024) (v : Fin 256) (hg : ∀ k, k < 1024 → colOf y v k = g k) :
    ∀ k, k < 1024 → colOf (stepV sb y) v k = scanStep s g k := fun k hk =>
  (colOf_stepV y sb s hs hlt v k hk).trans (scanStep_congr s _ _ k fun j hj => hg j (by omega))

/-- The loaded tile, seen with its unit axis dropped, has the tile's columns. -/
theorem colOf_load (x0 : Vec Ideal S1x1024x256 .f32) (v : Fin 256) (k : ℕ) (hk : k < 1024) :
    colOf (shapeCast S1024x256 x0 shapeCasts_S1x1024x256_S1024x256) v k = tileCol x0 v k := by
  unfold colOf tileCol
  rw [dif_pos hk, dif_pos hk]
  refine shapeCast_apply x0 shapeCasts_S1x1024x256_S1024x256 (ix2 ⟨k, hk⟩ v) (ix3 0 ⟨k, hk⟩ v) ?_
  rw [Shape.rowMajor_val_two, Shape.rowMajor_val_three]
  show ((0 : ℕ) * 1024 + k) * 256 + v.val = k * 256 + v.val
  omega

/-! ## The ten steps -/

/-- The first four steps. -/
theorem pay4_eq (x0 : Vec Ideal S1x1024x256 .f32) :
    k0_pay4 x0 = stepV 8#32 (stepV 4#32 (stepV 2#32 (stepV 1#32
      (shapeCast S1024x256 x0 shapeCasts_S1x1024x256_S1024x256)))) := rfl

/-- The last six steps and the join with the carried row. -/
theorem pay7_eq (y : FVec Ideal S1024x256 .f32) (carry : Vec Ideal S1x256 .f32) :
    k0_pay7 y (dynamicRotate 0 16#32 none y rotates_S1024x256_d0)
        (cmpi .sge (iota .tc S1024x256 32 [0] iota_S1024x256_d0_w32) (broadcast S1024x256 16#32))
        (Scalar.ofBits .f32 0xFF800000#32) carry
      = maximumf (stepV 512#32 (stepV 256#32 (stepV 128#32 (stepV 64#32 (stepV 32#32 (stepV 16#32 y))))))
          (broadcastTo S1024x256 carry broadcasts_S1x256_S1024x256) := rfl

/-- After the ten steps, column v at row r is the running maximum of the tile's column up to r. -/
theorem scanned_apply (x0 : Vec Ideal S1x1024x256 .f32) (r : Fin 1024) (v : Fin 256) :
    stepV 512#32 (stepV 256#32 (stepV 128#32 (stepV 64#32 (stepV 32#32 (stepV 16#32 (k0_pay4 x0)))))) (ix2 r v)
      = runMax (tileCol x0 v) r.val := by
  rw [pay4_eq]
  refine (colOf_val _ r v).symm.trans ?_
  have h0 := colOf_load x0 v
  have h1 := colOf_stepV_of _ _ 1#32 1 rfl (by decide) v h0
  have h2 := colOf_stepV_of _ _ 2#32 2 rfl (by decide) v h1
  have h3 := colOf_stepV_of _ _ 4#32 4 rfl (by decide) v h2
  have h4 := colOf_stepV_of _ _ 8#32 8 rfl (by decide) v h3
  have h5 := colOf_stepV_of _ _ 16#32 16 rfl (by decide) v h4
  have h6 := colOf_stepV_of _ _ 32#32 32 rfl (by decide) v h5
  have h7 := colOf_stepV_of _ _ 64#32 64 rfl (by decide) v h6
  have h8 := colOf_stepV_of _ _ 128#32 128 rfl (by decide) v h7
  have h9 := colOf_stepV_of _ _ 256#32 256 rfl (by decide) v h8
  have h10 := colOf_stepV_of _ _ 512#32 512 rfl (by decide) v h9
  exact (h10 r.val r.isLt).trans (scan1024 (tileCol x0 v) r.val r.isLt)

/-- The scanned tile at (r, v): the running maximum of column v up to row r, joined with the carried row at v. -/
theorem full_apply (x0 : Vec Ideal S1x1024x256 .f32) (carry : Vec Ideal S1x256 .f32) (r : Fin 1024) (v : Fin 256) :
    k0_pay7 (k0_pay4 x0) (k0_pay5 x0) (k0_pay6) (Scalar.ofBits .f32 0xFF800000#32) carry (ix2 r v)
      = max (runMax (tileCol x0 v) r.val) (carry (ix2 0 v)) := by
  have e : k0_pay7 (k0_pay4 x0) (k0_pay5 x0) (k0_pay6) (Scalar.ofBits .f32 0xFF800000#32) carry
      = maximumf (stepV 512#32 (stepV 256#32 (stepV 128#32 (stepV 64#32 (stepV 32#32 (stepV 16#32 (k0_pay4 x0)))))))
          (broadcastTo S1024x256 carry broadcasts_S1x256_S1024x256) := pay7_eq (k0_pay4 x0) carry
  rw [e, maximumf_apply, scanned_apply]
  refine congrArg (max _) ?_
  exact broadcastTo_apply carry broadcasts_S1x256_S1024x256 (ix2 r v) (ix2 0 v) (fun c => match c with
    | ⟨0, _⟩ => by show (0 : ℕ) = if (1 : ℕ) = 1 then 0 else r.val; rw [if_pos rfl]
    | ⟨1, _⟩ => by show v.val = if (256 : ℕ) = 1 then 0 else v.val; rw [if_neg (by decide)])

/-- The row carried to the next tile: the last row of the scanned tile. -/
theorem carry_apply (x0 : Vec Ideal S1x1024x256 .f32) (carry : Vec Ideal S1x256 .f32) (v : Fin 256) :
    k0_pay1 (k0_pay8 (k0_pay4 x0) (k0_pay5 x0) (k0_pay6) (Scalar.ofBits .f32 0xFF800000#32) carry) (ix2 0 v)
      = max (runMax (tileCol x0 v) 1023) (carry (ix2 0 v)) := by
  unfold k0_pay1 k0_pay8
  rw [shapeCast_self]
  refine (extractStridedSlice_apply ![1023, 0] _ slices_S1024x256_o1023_0_S1x256 (ix2 0 v) (ix2 (1023 : Fin 1024) v)
    (fun c => match c with
      | ⟨0, _⟩ => by show (1023 : ℕ) = 1023 + 0; rfl
      | ⟨1, _⟩ => by show v.val = 0 + v.val; omega)).trans ?_
  exact full_apply x0 carry 1023 v

end Cert.CumMaxProj

end
-- ==== Proof.Invariant.lean ====
/-
  What the carried row and the output block hold after each grid point.

  Point t is tile t % 4 of batch t / 4. After it the carried row holds, for every feature v, the running maximum of
  batch t / 4 over all times up to the tile's last row, 1024 * (t % 4) + 1023: at a batch's first tile the row is reset
  and the tile's own running maximum is all there is; at a later tile the row carried in is the running maximum up to
  the row before the tile, and joining it with the tile's own running maximum is the running maximum of the longer
  prefix. The output block holds, at row r and output feature o, the projection of the running maxima at time
  1024 * (t % 4) + r: the same splitting of a prefix at the tile's first row.
-/
import proofs.«163926_j59124519797164_1_alg».proof.Proof.Blocks
import proofs.«163926_j59124519797164_1_alg».proof.Proof.Pieces
import proofs.«163926_j59124519797164_1_alg».proof.Proof.ScanPayload

set_option maxRecDepth 16384

noncomputable section

namespace Cert.CumMaxProj

open Idealize.ShloMosaic Idealize.ShloMosaic.TcCoe Idealize.ShloMosaic.ValueIdx Idealize.SL.Sem RunningMax
open Cert.KernelIdeal Cert.KernelIdeal.Gen

variable (m : (ℓ : Loc nD τ sig) → Buf (Elt Ideal) ℓ)

/-- Feature v of batch b over time, the batch a natural number (⊥ outside the array, never read). -/
def colN (codes : FVec Ideal S16x4096x256 .f32) (b : ℕ) (v : Fin 256) : ℕ → EReal :=
  fun k => if h : b < 16 ∧ k < 4096 then codes (ix3 ⟨b, h.1⟩ ⟨k, h.2⟩ v) else ⊥

theorem colN_eq (codes : FVec Ideal S16x4096x256 .f32) (b : Fin 16) (v : Fin 256) : colN codes b.val v = col codes b v := by
  funext k
  unfold colN col
  by_cases hk : k < 4096
  · rw [dif_pos ⟨b.isLt, hk⟩, dif_pos hk]
  · rw [dif_neg (fun h => hk h.2), dif_neg hk]

/-- Row k of point t's tile is time 1024 * (t % 4) + k of batch t / 4. -/
theorem tileCol_eq (c : Dev nD) (t : Fin cfg0.N) (v : Fin 256) (k : ℕ) (hk : k < 1024) :
    tileCol (tileAt m c t) v k = colN (codesOf m c) (t.val / 4) v (1024 * (t.val % 4) + k) := by
  have h64 := lt64 t
  unfold tileCol colN
  rw [dif_pos hk, dif_pos ⟨by omega, by omega⟩]
  exact tile_apply m c t ⟨k, hk⟩ v

/-- The two cases of a point, as the body's arithmetic of the point's blocks. -/
theorem carry_first (c : Dev nD) (t : Fin cfg0.N) (h0 : t.val % 4 = 0) :
    (outsAt0 m c t.val t.isLt).2 = carryOf (tileAt m c t) (k0_pay3 (F := Ideal)) := by
  rw [outsAt0_A m c t h0]; dsimp only
  exact sout0_A_0_eq (F := Ideal) c (grid0.coords t) (ms0_0 t) (hs0_0 t) (ms0_1 t) (hs0_1 t) (ms0_2 t) (hs0_2 t) (ms0_3 t) (hs0_3 t)
    scM0_0 (Memref.isWhole_whole _) ((hcond0_0 t).mpr h0) (tileAt m c t) (wtAt m c t) (brAt m c t)

theorem block_first (c : Dev nD) (t : Fin cfg0.N) (h0 : t.val % 4 = 0) :
    (outsAt0 m c t.val t.isLt).1 = k0_pay2 (fullOf (tileAt m c t) (k0_pay3 (F := Ideal))) (wtAt m c t) (brAt m c t) := by
  rw [outsAt0_A m c t h0]; dsimp only
  exact out0_A_3_eq (F := Ideal) c (grid0.coords t) (ms0_0 t) (hs0_0 t) (ms0_1 t) (hs0_1 t) (ms0_2 t) (hs0_2 t) (ms0_3 t) (hs0_3 t)
    scM0_0 (Memref.isWhole_whole _) ((hcond0_0 t).mpr h0) (tileAt m c t) (wtAt m c t) (brAt m c t)

theorem carry_later (c : Dev nD) (t : Fin cfg0.N) (h0 : ¬t.val % 4 = 0) :
    (outsAt0 m c t.val t.isLt).2
      = carryOf (tileAt m c t) (outsAt0 m c (t.val - 1) (Nat.lt_of_le_of_lt (Nat.sub_le _ _) t.isLt)).2 := by
  rw [outsAt0_B m c t h0]; dsimp only
  exact sout0_B_0_eq (F := Ideal) c (grid0.coords t) (ms0_0 t) (hs0_0 t) (ms0_1 t) (hs0_1 t) (ms0_2 t) (hs0_2 t) (ms0_3 t) (hs0_3 t)
    scM0_0 (Memref.isWhole_whole _) (fun h => h0 ((hcond0_0 t).mp h)) (tileAt m c t) (wtAt m c t) (brAt m c t)
    (outsAt0 m c (t.val - 1) (Nat.lt_of_le_of_lt (Nat.sub_le _ _) t.isLt)).2

theorem block_later (c : Dev nD) (t : Fin cfg0.N) (h0 : ¬t.val % 4 = 0) :
    (outsAt0 m c t.val t.isLt).1
      = k0_pay2 (fullOf (tileAt m c t) (outsAt0 m c (t.val - 1) (Nat.lt_of_le_of_lt (Nat.sub_le _ _) t.isLt)).2)
          (wtAt m c t) (brAt m c t) := by
  rw [outsAt0_B m c t h0]; dsimp only
  exact out0_B_3_eq (F := Ideal) c (grid0.coords t) (ms0_0 t) (hs0_0 t) (ms0_1 t) (hs0_1 t) (ms0_2 t) (hs0_2 t) (ms0_3 t) (hs0_3 t)
    scM0_0 (Memref.isWhole_whole _) (fun h => h0 ((hcond0_0 t).mp h)) (tileAt m c t) (wtAt m c t) (brAt m c t)
    (outsAt0 m c (t.val - 1) (Nat.lt_of_le_of_lt (Nat.sub_le _ _) t.isLt)).2

/-- A prefix that starts at time zero: the shifted sequence is the sequence. -/
theorem prefix_first (f g : ℕ → EReal) (a r : ℕ) (ha : a = 0) (hg : ∀ k, k ≤ r → g k = f (a + k)) :
    runMax g r = runMax f (a + r) := by
  subst ha
  rw [Nat.zero_add]
  exact runMax_congr _ _ _ (fun k hk => (hg k hk).trans (by rw [Nat.zero_add]))

/-- A prefix split at a > 0: the running maximum of the part from a on, joined with the running maximum before a. -/
theorem join_prefix (f g : ℕ → EReal) (a r : ℕ) (ha : 0 < a) (hg : ∀ k, k ≤ r → g k = f (a + k)) :
    max (runMax g r) (runMax f (a - 1)) = runMax f (a + r) := by
  rw [runMax_add f a r ha, max_comm]
  congr 1
  exact runMax_congr _ _ _ hg

/-- After point n the carried row holds the batch's running maxima up to the tile's last row. -/
theorem carry_after (c : Dev nD) : ∀ (n : ℕ) (h : n < cfg0.N) (v : Fin 256),
    (outsAt0 m c n h).2 (ix2 0 v) = runMax (colN (codesOf m c) (n / 4) v) (1024 * (n % 4) + 1023) := by
  intro n
  induction n with
  | zero =>
    intro h v
    refine (congrFun (carry_first m c ⟨0, h⟩ rfl) (ix2 0 v)).trans ?_
    refine (carry_apply (tileAt m c ⟨0, h⟩) (k0_pay3 (F := Ideal)) v).trans ?_
    rw [reset_apply, max_bot_right]
    exact prefix_first _ _ _ 1023 (by decide) (fun k hk => tileCol_eq m c ⟨0, h⟩ v k (by omega))
  | succ n ih =>
    intro h v
    have h64 : n + 1 < 64 := lt_of_lt_of_eq h (show cfg0.N = 64 from N_0)
    by_cases h0 : (n + 1) % 4 = 0
    · refine (congrFun (carry_first m c ⟨n + 1, h⟩ h0) (ix2 0 v)).trans ?_
      refine (carry_apply (tileAt m c ⟨n + 1, h⟩) (k0_pay3 (F := Ideal)) v).trans ?_
      rw [reset_apply, max_bot_right]
      exact prefix_first _ _ _ 1023 (by omega) (fun k hk => tileCol_eq m c ⟨n + 1, h⟩ v k (by omega))
    · refine (congrFun (carry_later m c ⟨n + 1, h⟩ h0) (ix2 0 v)).trans ?_
      refine (carry_apply (tileAt m c ⟨n + 1, h⟩) _ v).trans ?_
      refine (congrArg (max _) (ih (Nat.lt_of_succ_lt h) v)).trans ?_
      have e1 : n / 4 = (n + 1) / 4 := by omega
      have e2 : 1024 * (n % 4) + 1023 = 1024 * ((n + 1) % 4) - 1 := by omega
      rw [e1, e2]
      exact join_prefix _ _ _ 1023 (by omega) (fun k hk => tileCol_eq m c ⟨n + 1, h⟩ v k (by omega))

/-- After point t the output block holds the projected running maxima of the tile's times. -/
theorem block_after (c : Dev nD) (t : Fin cfg0.N) (r : Fin 1024) (o : Fin 256) :
    (outsAt0 m c t.val t.isLt).1 (ix3 0 r o)
      = (∑ v : Fin 256, runMax (colN (codesOf m c) (t.val / 4) v) (1024 * (t.val % 4) + r.val) * weightOf m c (ix2 o v))
          + biasOf m c (ix1 o) := by
  have h64 := lt64 t
  have hr := r.isLt
  by_cases h0 : t.val % 4 = 0
  · refine (congrFun (block_first m c t h0) (ix3 0 r o)).trans ?_
    refine (block_apply (fullOf (tileAt m c t) (k0_pay3 (F := Ideal))) (wtAt m c t) (brAt m c t) r o).trans ?_
    rw [br_apply m c t o]
    congr 1
    refine Finset.sum_congr rfl (fun v _ => ?_)
    rw [wt_apply m c t v o]
    congr 1
    refine (full_apply (tileAt m c t) (k0_pay3 (F := Ideal)) r v).trans ?_
    rw [reset_apply, max_bot_right]
    exact prefix_first _ _ _ r.val (by omega) (fun k hk => tileCol_eq m c t v k (by omega))
  · refine (congrFun (block_later m c t h0) (ix3 0 r o)).trans ?_
    refine (block_apply (fullOf (tileAt m c t) (outsAt0 m c (t.val - 1) (Nat.lt_of_le_of_lt (Nat.sub_le _ _) t.isLt)).2)
      (wtAt m c t) (brAt m c t) r o).trans ?_
    rw [br_apply m c t o]
    congr 1
    refine Finset.sum_congr rfl (fun v _ => ?_)
    rw [wt_apply m c t v o]
    congr 1
    refine (full_apply (tileAt m c t) _ r v).trans ?_
    refine (congrArg (max _) (carry_after m c (t.val - 1) (Nat.lt_of_le_of_lt (Nat.sub_le _ _) t.isLt) v)).trans ?_
    have e1 : (t.val - 1) / 4 = t.val / 4 := by omega
    have e2 : 1024 * ((t.val - 1) % 4) + 1023 = 1024 * (t.val % 4) - 1 := by omega
    rw [e1, e2]
    exact join_prefix _ _ _ r.val (by omega) (fun k hk => tileCol_eq m c t v k (by omega))

end Cert.CumMaxProj

end
-- ==== Proof.KernelValue.lean ====
/-
  The kernel's result.

  What grid point t writes back is block t of the table Gfull of projected running maxima (the invariant of the points,
  read at the block's place in the array: batch t / 4, times 1024 * (t % 4) + r). The 64 blocks tile the array, so after
  the region the output array is Gfull; the host line after the region keeps the first 4095 times, which is G.
-/
import proofs.«163926_j59124519797164_1_alg».proof.Proof.Invariant
import Idealize.ShloMosaic.Lib.StableHlo.Run

set_option maxRecDepth 16384

noncomputable section

namespace Cert.CumMaxProj

open Idealize.ShloMosaic Idealize.ShloMosaic.TcCoe Idealize.ShloMosaic.ValueIdx Idealize.SL.Sem RunningMax
open Idealize.ShloMosaic.Pipeline (Dat)
open Cert.KernelIdeal Cert.KernelIdeal.Gen

variable (m : (ℓ : Loc nD τ sig) → Buf (Elt Ideal) ℓ) (ρ : Dev nD → PrngReg)

/-- The table of projected running maxima of the arguments as the program finds them. -/
abbrev GfullOf (c : Dev nD) : FVec Ideal S16x4096x256 .f32 := Gfull (codesOf m c) (weightOf m c) (biasOf m c)

/-- Place (0, r, o) of point t's output block is place (t / 4, 1024 * (t % 4) + r, o) of the array. -/
theorem emb_out (t : Fin cfg0.N) (r : Fin 1024) (o : Fin 256) :
    ((cfg0.win 3).blk t).view.emb (ix3 0 r o)
      = ix3 ⟨t.val / 4, by have := lt64 t; omega⟩ ⟨1024 * (t.val % 4) + r.val, by have := r.isLt; omega⟩ o := by
  have hi := out_index t
  funext a
  apply Fin.ext
  match a with
  | ⟨0, _⟩ => show win0_3.index t 0 * 1 + 1 * 0 = t.val / 4; rw [hi.1]; omega
  | ⟨1, _⟩ => show win0_3.index t 1 * 1024 + 1 * r.val = 1024 * (t.val % 4) + r.val; rw [hi.2.1]; omega
  | ⟨2, _⟩ => show win0_3.index t 2 * 256 + 1 * o.val = o.val; rw [hi.2.2]; omega

/-- What point t writes back is block t of the table. -/
theorem flushed_eq (c : Dev nD) (t : Fin cfg0.N) :
    (dats m 0 c).flushed 3 t = ((cfg0.win 3).blk t).view.read (Elt Ideal) (GfullOf m c) := by
  show (cfg0.win 3).cut (grid0.coords t) ((dats m 0 c).after 3 t) = _
  rw [after0_3]
  funext j
  obtain ⟨p, r, o, rfl⟩ : ∃ (p : Fin 1) (r : Fin 1024) (o : Fin 256), j = ix3 p r o := ⟨j 0, j 1, j 2, eq_ix3 j⟩
  obtain rfl : p = 0 := Subsingleton.elim _ _
  rw [View.read_apply, emb_out]
  refine (block_after m c t r o).trans ?_
  show _ = proj (codesOf m c) (weightOf m c) (biasOf m c) ⟨t.val / 4, _⟩ (1024 * (t.val % 4) + r.val) o
  unfold proj
  congr 1
  refine Finset.sum_congr rfl (fun v _ => ?_)
  rw [← colN_eq (codesOf m c) ⟨t.val / 4, by have := lt64 t; omega⟩ v]

/-- An index of the array is in point t's block iff each coordinate is in the block's range. -/
theorem mem_blk (t : Fin cfg0.N) (i : S16x4096x256.Idx) :
    i ∈ ((cfg0.win 3).blk t).view.set ↔ ∀ a : Fin 3, win0_3.index t a * S1x1024x256.size a ≤ (i a).val
      ∧ (i a).val < win0_3.index t a * S1x1024x256.size a + S1x1024x256.size a := by
  show i ∈ ((View.whole main_v3).slice (win0_3.rect t)).set ↔ _
  rw [View.set_slice_whole, Rect.mem_set_unit]
  exact Iff.rfl

/-- Every place of the array is in the block of the point of its batch and of its time's tile. -/
theorem covered (i : S16x4096x256.Idx) :
    ∃ t : Fin cfg0.N, (cfg0.win 3).flush t = true ∧ i ∈ ((cfg0.win 3).blk t).view.set := by
  have h0 : (i 0).val < 16 := (i 0).isLt
  have h1 : (i 1).val < 4096 := (i 1).isLt
  have h2 : (i 2).val < 256 := (i 2).isLt
  have hN : cfg0.N = 64 := N_0
  have ht : 4 * (i 0).val + (i 1).val / 1024 < cfg0.N := by rw [hN]; omega
  have hi := out_index ⟨4 * (i 0).val + (i 1).val / 1024, ht⟩
  refine ⟨⟨4 * (i 0).val + (i 1).val / 1024, ht⟩, flush0_3 _, ?_⟩
  rw [mem_blk]
  intro a
  match a with
  | ⟨0, _⟩ =>
    show win0_3.index ⟨4 * (i 0).val + (i 1).val / 1024, ht⟩ 0 * 1 ≤ (i 0).val
      ∧ (i 0).val < win0_3.index ⟨4 * (i 0).val + (i 1).val / 1024, ht⟩ 0 * 1 + 1
    rw [hi.1]; show (4 * (i 0).val + (i 1).val / 1024) / 4 * 1 ≤ _ ∧ _ < (4 * (i 0).val + (i 1).val / 1024) / 4 * 1 + 1; omega
  | ⟨1, _⟩ =>
    show win0_3.index ⟨4 * (i 0).val + (i 1).val / 1024, ht⟩ 1 * 1024 ≤ (i 1).val
      ∧ (i 1).val < win0_3.index ⟨4 * (i 0).val + (i 1).val / 1024, ht⟩ 1 * 1024 + 1024
    rw [hi.2.1]; show (4 * (i 0).val + (i 1).val / 1024) % 4 * 1024 ≤ _ ∧ _ < (4 * (i 0).val + (i 1).val / 1024) % 4 * 1024 + 1024; omega
  | ⟨2, _⟩ =>
    show win0_3.index ⟨4 * (i 0).val + (i 1).val / 1024, ht⟩ 2 * 256 ≤ (i 2).val
      ∧ (i 2).val < win0_3.index ⟨4 * (i 0).val + (i 1).val / 1024, ht⟩ 2 * 256 + 256
    rw [hi.2.2]; omega

/-- After the region the output array is the table. -/
theorem final (c : Dev nD) : (dats m 0 c).arrAt 3 cfg0.N = GfullOf m c :=
  (dats m 0 c).arrAt_eq_of_cover 3 (GfullOf m c) (fun t _ => flushed_eq m c t) covered

/-- The table at a time below 4095 is G there. -/
theorem table_at (codes : FVec Ideal S16x4096x256 .f32) (W : FVec Ideal S256x256 .f32) (bias : FVec Ideal S256 .f32)
    (b : Fin 16) (l : Fin 4095) (o : Fin 256) :
    Gfull codes W bias (ix3 b ⟨l.val, by have := l.isLt; omega⟩ o) = G codes W bias (ix3 b l o) := rfl

/-- A place of the [16, 4095, 256] result by its three coordinates. -/
theorem result_coords (j : S16x4095x256.Idx) : ∃ (b : Fin 16) (l : Fin 4095) (o : Fin 256), j = ix3 b l o :=
  ⟨j 0, j 1, j 2, eq_ix3 j⟩

/-- The slice that keeps the first 4095 times reads its operand at the same batch, time and feature. -/
theorem slice_at (X : FVec Ideal S16x4096x256 .f32) (h : S16x4096x256.Slices ![0, 0, 0] S16x4095x256)
    (b : Fin 16) (l : Fin 4095) (o : Fin 256) :
    extractStridedSlice S16x4095x256 ![0, 0, 0] X h (ix3 b l o) = X (ix3 b ⟨l.val, by have := l.isLt; omega⟩ o) := by
  refine extractStridedSlice_apply ![0, 0, 0] X h (ix3 b l o) (ix3 b ⟨l.val, by have := l.isLt; omega⟩ o) (fun a => ?_)
  match a with
  | ⟨0, _⟩ => show b.val = 0 + b.val; omega
  | ⟨1, _⟩ => show l.val = 0 + l.val; omega
  | ⟨2, _⟩ => show o.val = 0 + o.val; omega

/-- Keeping the first 4095 times of the table of projected running maxima gives G. -/
theorem slice_table (codes : FVec Ideal S16x4096x256 .f32) (W : FVec Ideal S256x256 .f32) (bias : FVec Ideal S256 .f32)
    (X : FVec Ideal S16x4096x256 .f32) (hX : X = Gfull codes W bias) (h : S16x4096x256.Slices ![0, 0, 0] S16x4095x256) :
    extractStridedSlice S16x4095x256 ![0, 0, 0] X h = G codes W bias := by
  funext j
  obtain ⟨b, l, o, rfl⟩ := result_coords j
  exact (slice_at X h b l o).trans ((congrFun hX _).trans (table_at codes W bias b l o))

/-- The host line after the region keeps the first 4095 times of the table: the result is G. -/
theorem tail_eq (c : Dev nD) :
    Pipeline.afterTail₀ cfgs (dats m) 0 (V0 m) [hostOps1] c main_v4 = G (codesOf m c) (weightOf m c) (biasOf m c) := by
  have e : Pipeline.withArrays (cfgs 0).spec c (V0 m c) (fun w => (dats m 0 c).arrAt w (cfgs 0).N) (Proc.devRef .tc main_v3)
      = Gfull (codesOf m c) (weightOf m c) (biasOf m c) :=
    (Pipeline.withArrays_arr spec0 launch0.win.arr_inj c _ _ 3).trans (final m c)
  unfold Pipeline.afterTail₀
  show StableHlo.after hostOps1 _ (Proc.devRef .tc main_v4) = _
  after_results
  exact slice_table (codesOf m c) (weightOf m c) (biasOf m c) _ e _

/-- Every weakly fair execution of the idealized kernel's program terminates with its result at G of the arguments and
    the arguments unchanged. -/
theorem run : θ_run defs (onTc (τ := τ) (main (F := Ideal))) ⟨m, fun _ => 0, ρ⟩ (fun r => ∀ c : Dev nD,
      r.2.mem ((c.tc : Thread nD τ).loc main_v4) = G (codesOf m c) (weightOf m c) (biasOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.CumMaxProj

end
-- ==== Proof.lean ====
/-
  The certificate's claim.

  Both programs return, at batch b, time l < 4095 and output feature o, the number

      sum over v of  max (codes[b, 0, v], …, codes[b, l, v]) * W[o, v]   +   bias[o].

  The kernel reaches the running maximum tile by tile: inside a tile of 1024 times, ten doubling steps (each entry
  joined with the entry s places earlier, for s = 1, 2, 4, …, 512, where there is one) give the running maximum of the
  tile's own rows, and a row carried from tile to tile (reset to minus infinity at a batch's first tile) supplies the
  maximum over the earlier tiles; the reference takes the maximum over a window of all earlier times at once, padded
  with minus infinity. The maximum is associative, commutative and idempotent and minus infinity is its unit on the
  extended reals, so the two agree on every input; the products and the sum over v are the same on both sides, and the
  change to a narrower float format and back is the identity there. Finiteness of the inputs is not used.

  The three frames are the generated ones (the reference's through its run with the result dropped), the idealization
  changed no operation, and the value claim pairs the kernel's run (its output array read off the points' invariant,
  then the host slice) with the reference's run read one operation at a time.
-/
import proofs.«163926_j59124519797164_1_alg».proof.Defs
import proofs.«163926_j59124519797164_1_alg».proof.Proof.Gen.Kernel
import proofs.«163926_j59124519797164_1_alg».proof.Proof.Gen.Kernel.Skeleton
import proofs.«163926_j59124519797164_1_alg».proof.Proof.Gen.Kernel.Launch
import proofs.«163926_j59124519797164_1_alg».proof.Proof.Gen.Kernel.Points
import proofs.«163926_j59124519797164_1_alg».proof.Proof.Gen.Kernel.Frame
import proofs.«163926_j59124519797164_1_alg».proof.Proof.Gen.KernelIdeal
import proofs.«163926_j59124519797164_1_alg».proof.Proof.Gen.KernelIdeal.Skeleton
import proofs.«163926_j59124519797164_1_alg».proof.Proof.Gen.KernelIdeal.Launch
import proofs.«163926_j59124519797164_1_alg».proof.Proof.Gen.KernelIdeal.Points
import proofs.«163926_j59124519797164_1_alg».proof.Proof.Gen.KernelIdeal.Frame
import proofs.«163926_j59124519797164_1_alg».proof.Proof.Gen.ReferenceIdeal
import proofs.«163926_j59124519797164_1_alg».proof.Proof.Gen.Pre_finite_inputs
import proofs.«163926_j59124519797164_1_alg».proof.Proof.RefRun
import proofs.«163926_j59124519797164_1_alg».proof.Proof.RefRead
import proofs.«163926_j59124519797164_1_alg».proof.Proof.RefValue
import proofs.«163926_j59124519797164_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- Both runs end with the result at G of arguments that agree. -/
theorem algebraic : Cert.algebraic_KernelIdeal_ReferenceIdeal := by
  intro m ρ m' ρ' _ hagree
  refine ⟨fun c => Cert.CumMaxProj.G (Cert.CumMaxProj.codesOf m c) (Cert.CumMaxProj.weightOf m c) (Cert.CumMaxProj.biasOf m c),
    Cert.CumMaxProj.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v5_eq, Cert.CumMaxProj.ref_eq, (hagree c).2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
